-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x1 : Shape := ⟨2, ![5000, 1]⟩

abbrev nBuf : Space → Nat
  | .hbm => 68
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  dot_S5000x128_S128x64_S5000x64_1_0_0_1_n_n_wf : DotDims.WF S5000x128 S128x64 S5000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call0_cst : Ref sig .tc := ⟨.hbm, 84, rfl⟩
abbrev main_call0_v0 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics both programs compute, stated once as whole-array functions over the extended reals.

  A graph-convolution layer on N = 100000 nodes with E = 1600000 directed edges (src e → dst e):
    h      = x · W                                   (N × 64; row r, column q: Σ_k x[r,k] · W[k,q])
    deg    = 1 + (number of edges into each node)     (a scatter-add of ones over dst)
    agg    = Σ_{e : dst e = r} h[src e, ·] · deg[src e]^(-1/2) · deg[dst e]^(-1/2)      (a gather, a scaling, a scatter-add)
    out    = max(0, ((agg + h / deg + b) − μ) · (σ² + ε)^(-1/2) · γ + β)                (batch normalisation, then ReLU)
  The gather / scatter chain from `h` and the edge list to `agg`, and from the edge list to `1 / deg`, is the
  SAME sequence of host operations in both programs; it is never opened: all that is used of it is that equal
  inputs give equal outputs. What differs between the programs is how `h` is computed (row blocks of 5000 on the
  matrix unit, against one whole product) and how the last line is laid out (row blocks of 5000 reading an N × 1
  column and 1 × 64 rows, against whole-array broadcasts of vectors); those are `rowDot` and `bnRelu` below,
  index by index.
-/
import proofs.«113562_j70531952935093_1_alg».proof.Proof.Gen.KernelIdeal
import Idealize.ShloMosaic.PureOps.Ideal
import Idealize.ShloMosaic.Lib.ValueIdx
import Idealize.ShloMosaic.Lib.Pipeline.Value

noncomputable section

namespace Cert.Gcn

open Idealize.ShloMosaic Cert.KernelIdeal Cert.KernelIdeal.Facts₀

/-! ## Indices -/

/-- Entry (row of `i`, k) of the left factor. -/
abbrev lIdx (i : S100000x64.Idx) (k : Fin 128) : S100000x128.Idx := fun a => match a with
  | ⟨0, _⟩ => ⟨(i 0).val, (i 0).isLt⟩
  | ⟨1, _⟩ => ⟨k.val, k.isLt⟩
/-- Entry (k, column of `i`) of the right factor. -/
abbrev rIdx (i : S100000x64.Idx) (k : Fin 128) : S128x64.Idx := fun a => match a with
  | ⟨0, _⟩ => ⟨k.val, k.isLt⟩
  | ⟨1, _⟩ => ⟨(i 1).val, (i 1).isLt⟩
/-- The row of `i` in a column kept as an N × 1 array. -/
abbrev rowIdx (i : S100000x64.Idx) : S100000x1.Idx := fun a => match a with
  | ⟨0, _⟩ => ⟨(i 0).val, (i 0).isLt⟩
  | ⟨1, _⟩ => ⟨0, Nat.one_pos⟩
/-- The column of `i` in a row kept as a 1 × 64 array. -/
abbrev colIdx (i : S100000x64.Idx) : S1x64.Idx := fun a => match a with
  | ⟨0, _⟩ => ⟨0, Nat.one_pos⟩
  | ⟨1, _⟩ => ⟨(i 1).val, (i 1).isLt⟩
/-- The node of `i` in a vector of N entries. -/
abbrev nodeIdx (i : S100000x64.Idx) : S100000.Idx := fun a => match a with
  | ⟨0, _⟩ => ⟨(i 0).val, (i 0).isLt⟩
/-- The channel of `i` in a vector of 64 entries. -/
abbrev chanIdx (i : S100000x64.Idx) : S64.Idx := fun a => match a with
  | ⟨0, _⟩ => ⟨(i 1).val, (i 1).isLt⟩

/-! ## The two laid-out stages -/

/-- `x · W`: entry (r, q) is the sum over k of x[r, k] · W[k, q]. -/
def rowDot (x : FVec Ideal S100000x128 .f32) (w : FVec Ideal S128x64 .f32) : FVec Ideal S100000x64 .f32 :=
  fun i => ∑ k : Fin 128, x (lIdx i k) * w (rIdx i k)

/-- The self-loop term, the bias, batch normalisation with the running statistics, and the ReLU, at entry (r, q):
    max(((((agg + h · invdeg[r]) + b[q]) − μ[q]) · rsqrt(σ²[q] + ε)) · γ[q] + β[q], 0),
    `ε` the single-precision word nearest 1e-5 and `0` the zero word, both kept as their bit patterns. Here the
    column `invdeg` is N × 1 and the five per-channel rows are 1 × 64, as the blocked program holds them. -/
def bnRelu (agg h : FVec Ideal S100000x64 .f32) (invdeg : FVec Ideal S100000x1 .f32)
    (b γ β μ σ2 : FVec Ideal S1x64 .f32) : FVec Ideal S100000x64 .f32 :=
  fun i => max (((((agg i + h i * invdeg (rowIdx i)) + b (colIdx i)) - μ (colIdx i))
      * Ideal.rsqrt (σ2 (colIdx i) + Ideal.ofBits .f32 0x3727C5AC#32)) * γ (colIdx i) + β (colIdx i))
    (Ideal.ofBits .f32 0x00000000#32)

/-- The same over plain vectors: `invdeg` of N entries, the per-channel vectors of 64. -/
def bnReluVec (agg h : FVec Ideal S100000x64 .f32) (invdeg : FVec Ideal S100000 .f32)
    (b γ β μ σ2 : FVec Ideal S64 .f32) : FVec Ideal S100000x64 .f32 :=
  fun i => max (((((agg i + h i * invdeg (nodeIdx i)) + b (chanIdx i)) - μ (chanIdx i))
      * Ideal.rsqrt (σ2 (chanIdx i) + Ideal.ofBits .f32 0x3727C5AC#32)) * γ (chanIdx i) + β (chanIdx i))
    (Ideal.ofBits .f32 0x00000000#32)

/-- A vector of N entries laid out as an N × 1 column, read at row r, is its entry r. -/
theorem column_apply (v : FVec Ideal S100000 .f32) (i : S100000x64.Idx) :
    broadcastInDim S100000x1 ![0] bcast_S100000_S100000x1_0 v (rowIdx i) = v (nodeIdx i) :=
  broadcastInDim_apply ![0] bcast_S100000_S100000x1_0 v (rowIdx i) (nodeIdx i) (fun a => match a with
    | ⟨0, _⟩ => rfl)

/-- A vector of 64 entries reshaped to a 1 × 64 row, read at column q, is its entry q. -/
theorem row_apply (v : FVec Ideal S64 .f32) (i : S100000x64.Idx) :
    shapeCast S1x64 v shapeCasts_S64_S1x64 (colIdx i) = v (chanIdx i) :=
  shapeCast_apply v shapeCasts_S64_S1x64 (colIdx i) (chanIdx i) (by
    rewrite [Shape.rowMajor_val_two, Shape.rowMajor_val_one]
    show (i 1).val = 0 * 64 + (i 1).val
    omega)

/-- The blocked program's layout of the operands changes nothing: over a column and rows made from vectors,
    `bnRelu` is `bnReluVec` of the vectors. -/
theorem bnRelu_layout (agg h : FVec Ideal S100000x64 .f32) (invdeg : FVec Ideal S100000 .f32) (b γ β μ σ2 : FVec Ideal S64 .f32) :
    bnRelu agg h (broadcastInDim S100000x1 ![0] bcast_S100000_S100000x1_0 invdeg)
      (shapeCast S1x64 b shapeCasts_S64_S1x64) (shapeCast S1x64 γ shapeCasts_S64_S1x64) (shapeCast S1x64 β shapeCasts_S64_S1x64)
      (shapeCast S1x64 μ shapeCasts_S64_S1x64) (shapeCast S1x64 σ2 shapeCasts_S64_S1x64)
    = bnReluVec agg h invdeg b γ β μ σ2 := by
  funext i
  unfold bnRelu bnReluVec
  rw [column_apply, row_apply, row_apply, row_apply, row_apply, row_apply]

end Cert.Gcn

end
-- ==== Proof.Region0.lean ====
/-
  Region 0, the product `h = x · W` in row blocks of 5000.

  Grid point t (of 20) loads rows 5000·t … 5000·t + 4999 of `x` and all of `W`, rounds both to bfloat16 (the identity
  on extended reals), multiplies them on the matrix unit into a zero accumulator, and writes the 5000 × 64 product
  back as rows 5000·t … of `h`. Entry (p, q) of a block's product is Σ_k xblk[p, k] · W[k, q]; row p of block t is
  row 5000·t + p of `x`; so what point t writes back is block t of `rowDot x W`, and since the 20 blocks tile the
  100000 rows the array ends holding `rowDot x W` — whatever the buffers held when the region was entered (`V`).
-/
import proofs.«113562_j70531952935093_1_alg».proof.Proof.Gen.KernelIdeal.Frame
import proofs.«113562_j70531952935093_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.Region0

open Idealize.ShloMosaic Idealize.ShloMosaic.TcCoe Idealize.SL.Sem
open Idealize.ShloMosaic.Pipeline (Dat Cfg Window)
open Cert.KernelIdeal Cert.KernelIdeal.Gen Cert.Gcn

/-! ## One block's product at an entry -/

theorem lhs_axis0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_axis0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_axis1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (row of `j`, k) of a 5000 × 128 block. -/
abbrev blkL (j : S5000x64.Idx) (k : Fin 128) : S5000x128.Idx := fun a => match a with
  | ⟨0, _⟩ => ⟨(j 0).val, (j 0).isLt⟩
  | ⟨1, _⟩ => ⟨k.val, k.isLt⟩
/-- Entry (k, column of `j`) of `W`. -/
abbrev blkR (j : S5000x64.Idx) (k : Fin 128) : S128x64.Idx := fun a => match a with
  | ⟨0, _⟩ => ⟨k.val, k.isLt⟩
  | ⟨1, _⟩ => ⟨(j 1).val, (j 1).isLt⟩

/-- The body's product at entry `j` of the block: the sum over k of xblk[row j, k] · W[k, column j] — the roundings
    to bfloat16 are the identity on extended reals, and the accumulator is the zero splat. -/
theorem product_apply (xb : Vec Ideal S5000x128 .f32) (w : Vec Ideal S128x64 .f32) (j : S5000x64.Idx) :
    k0_pay1 (F := Ideal) xb w j = ∑ k : Fin 128, xb (blkL j k) * w (blkR j k) := by
  unfold k0_pay1
  show FloatOps.matmul dot_S5000x128_S128x64_S5000x64_1_0_0_1_n_n none (truncf .bf16 xb bitsLt_bf16_f32) (truncf .bf16 w bitsLt_bf16_f32) (constant (F := Ideal) S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blkL j k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx j ((ValueIdx.contrEquiv1 dot_S5000x128_S128x64_S5000x64_1_0_0_1_n_n 128 rfl rfl).symm k) = blkR j k := funext fun a => Fin.ext (by
    match a with
    | ⟨0, _⟩ => exact (rhs_axis0 _ _).trans hk
    | ⟨1, _⟩ => exact rhs_axis1 _ _)
  rw [ValueIdx.truncf_apply, ValueIdx.truncf_apply, el, er]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the `x` window and the output window sit at row block t, column block 0;
    the `W` window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block t of `rowDot` of the arrays `x` and `W` as the region finds them. -/
theorem flushed_eq (c : Dev nD) (t : Fin cfg0.N) :
    (dat0 V c).flushed 2 t = ((cfg0.win 2).blk t).view.read (Elt Ideal) (rowDot (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  show k0_pay1 (F := Ideal) (iblk0 V c 0 t) (iblk0 V c 1 t) j = rowDot (V c main_arg0) (V c main_arg2) (((cfg0.win 2).blk t).view.emb j)
  rw [product_apply]
  unfold rowDot
  refine Finset.sum_congr rfl fun k _ => ?_
  have hx : iblk0 V c 0 t (blkL j k) = V c main_arg0 (lIdx (((cfg0.win 2).blk t).view.emb j) k) := by
    show V c main_arg0 (((cfg0.win 0).blk t).view.emb (blkL j k)) = V c main_arg0 (lIdx (((cfg0.win 2).blk t).view.emb j) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (blkR j k) = V c main_arg2 (rIdx (((cfg0.win 2).blk t).view.emb j) k) := by
    show V c main_arg2 (((cfg0.win 1).blk t).view.emb (blkR j k)) = V c main_arg2 (rIdx (((cfg0.win 2).blk t).view.emb j) k)
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

/-- An index of `h` is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Row r lies in the block of point r / 5000: the 20 blocks tile the rows. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- THE ARRAY `h` after region 0: `rowDot` of `x` and `W` as the region finds them. -/
theorem final (c : Dev nD) : (dat0 V c).arrAt 2 cfg0.N = rowDot (V c main_arg0) (V c main_arg2) :=
  (dat0 V c).arrAt_eq_of_cover 2 (rowDot (V c main_arg0) (V c main_arg2)) (fun t _ => flushed_eq V c t) cover

end Cert.Gcn.Region0

end
-- ==== Proof.Region1.lean ====
/-
  Region 1, the epilogue in row blocks of 5000.

  Grid point t (of 20) loads rows 5000·t … 5000·t + 4999 of `agg`, of `h` and of the N × 1 column `1 / deg`, and the
  five 1 × 64 rows (bias, γ, β, running mean, running variance); it computes, entry by entry,
    max(((((agg + h · invdeg) + b) − μ) · rsqrt(σ² + ε)) · γ + β, 0)
  — the column broadcast along the 64 channels, the rows along the 5000 nodes — and writes the 5000 × 64 block back.
  Entry (p, q) of block t is entry (5000·t + p, q) of `bnRelu` of the whole arrays, and the 20 blocks tile the rows, so
  the output array ends holding `bnRelu` of the eight operand arrays as the region finds them (`V`).
-/
import proofs.«113562_j70531952935093_1_alg».proof.Proof.Gen.KernelIdeal.Frame
import proofs.«113562_j70531952935093_1_alg».proof.Proof.Spec
import Idealize.ShloMosaic.Lib.Pipeline.Value
import Idealize.ShloMosaic.Lib.ValueIdx

set_option maxRecDepth 16384

noncomputable section

namespace Cert.Gcn.Region1

open Idealize.ShloMosaic Idealize.ShloMosaic.TcCoe Idealize.SL.Sem
open Idealize.ShloMosaic.Pipeline (Dat Cfg Window)
open Cert.KernelIdeal Cert.KernelIdeal.Gen Cert.Gcn

/-! ## One block's arithmetic at an entry -/

/-- Row of `j` in a 5000 × 1 block. -/
abbrev bRow (j : S5000x64.Idx) : S5000x1.Idx := fun a => match a with
  | ⟨0, _⟩ => ⟨(j 0).val, (j 0).isLt⟩
  | ⟨1, _⟩ => ⟨0, Nat.one_pos⟩
/-- Column of `j` in a 1 × 64 row. -/
abbrev bCol (j : S5000x64.Idx) : S1x64.Idx := fun a => match a with
  | ⟨0, _⟩ => ⟨0, Nat.one_pos⟩
  | ⟨1, _⟩ => ⟨(j 1).val, (j 1).isLt⟩

/-- A 5000 × 1 column broadcast along the channels, read at `j`, is the column at the row of `j`. -/
theorem bcastCol_apply (v : FVec Ideal S5000x1 .f32) (j : S5000x64.Idx) :
    broadcastTo S5000x64 v broadcasts_S5000x1_S5000x64 j = v (bRow j) :=
  broadcastTo_apply v broadcasts_S5000x1_S5000x64 j (bRow j) (fun a => match a with
    | ⟨0, _⟩ => rfl
    | ⟨1, _⟩ => rfl)

/-- A 1 × 64 row broadcast along the nodes, read at `j`, is the row at the column of `j`. -/
theorem bcastRow_apply (v : FVec Ideal S1x64 .f32) (j : S5000x64.Idx) :
    broadcastTo S5000x64 v broadcasts_S1x64_S5000x64 j = v (bCol j) :=
  broadcastTo_apply v broadcasts_S1x64_S5000x64 j (bCol j) (fun a => match a with
    | ⟨0, _⟩ => rfl
    | ⟨1, _⟩ => rfl)

/-- The body's result at entry `j` of the block. -/
theorem epilogue_apply (a0 a1 : Vec Ideal S5000x64 .f32) (a2 : Vec Ideal S5000x1 .f32) (a3 a4 a5 a6 a7 : Vec Ideal S1x64 .f32)
    (j : S5000x64.Idx) :
    k1_pay1 (F := Ideal) a0 a1 a2 a3 a4 a5 a6 a7 j
      = max (((((a0 j + a1 j * a2 (bRow j)) + a3 (bCol j)) - a6 (bCol j))
          * Ideal.rsqrt (a7 (bCol j) + Ideal.ofBits .f32 0x3727C5AC#32)) * a4 (bCol j) + a5 (bCol j))
        (Ideal.ofBits .f32 0x00000000#32) := by
  unfold k1_pay1
  simp only [shapeCast_self]
  show max (((((a0 j + a1 j * broadcastTo S5000x64 a2 broadcasts_S5000x1_S5000x64 j) + broadcastTo S5000x64 a3 broadcasts_S1x64_S5000x64 j)
        - broadcastTo S5000x64 a6 broadcasts_S1x64_S5000x64 j)
      * broadcastTo S5000x64 (rsqrt (addf a7 (broadcast S1x64 (Scalar.ofBits (F := Ideal) .f32 0x3727C5AC#32)))) broadcasts_S1x64_S5000x64 j)
      * broadcastTo S5000x64 a4 broadcasts_S1x64_S5000x64 j + broadcastTo S5000x64 a5 broadcasts_S1x64_S5000x64 j)
    (Ideal.ofBits .f32 0x00000000#32) = _
  rw [bcastCol_apply, bcastRow_apply, bcastRow_apply, bcastRow_apply, bcastRow_apply, bcastRow_apply]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at row block t, column block
    0; the five per-channel rows at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- A row-blocked 5000 × 64 input window (`agg`, `h`) at entry `j` of point t's block is the array at the entry the
    output's block puts `j` at. -/
theorem read_full (c : Dev nD) (t : Fin cfg1.N) (j : S5000x64.Idx) :
    iblk1 V c 0 t j = V c main_v39 (((cfg1.win 8).blk t).view.emb j)
    ∧ iblk1 V c 1 t j = V c main_v4 (((cfg1.win 8).blk t).view.emb j) := by
  obtain ⟨e00, e01, e10, e11, -, -, -, -, -, -, -, -, -, -, -, -, e80, e81⟩ := idx_facts t
  constructor
  · show V c main_v39 (((cfg1.win 0).blk t).view.emb j) = V c main_v39 (((cfg1.win 8).blk t).view.emb j)
    refine congrArg (V c main_v39) (funext fun a => Fin.ext ?_)
    match a with
    | ⟨0, _⟩ => show win1_0.index t (0 : Fin 2) * 5000 + 1 * (j 0).val = win1_8.index t (0 : Fin 2) * 5000 + 1 * (j 0).val; omega
    | ⟨1, _⟩ => show win1_0.index t (1 : Fin 2) * 64 + 1 * (j 1).val = win1_8.index t (1 : Fin 2) * 64 + 1 * (j 1).val; omega
  · show V c main_v4 (((cfg1.win 1).blk t).view.emb j) = V c main_v4 (((cfg1.win 8).blk t).view.emb j)
    refine congrArg (V c main_v4) (funext fun a => Fin.ext ?_)
    match a with
    | ⟨0, _⟩ => show win1_1.index t (0 : Fin 2) * 5000 + 1 * (j 0).val = win1_8.index t (0 : Fin 2) * 5000 + 1 * (j 0).val; omega
    | ⟨1, _⟩ => show win1_1.index t (1 : Fin 2) * 64 + 1 * (j 1).val = win1_8.index t (1 : Fin 2) * 64 + 1 * (j 1).val; omega

/-- The column window at the row of `j` is the N × 1 array at the row the output's block puts `j` at. -/
theorem read_col (c : Dev nD) (t : Fin cfg1.N) (j : S5000x64.Idx) :
    iblk1 V c 2 t (bRow j) = V c main_v42 (rowIdx (((cfg1.win 8).blk t).view.emb j)) := by
  obtain ⟨-, -, -, -, e20, e21, -, -, -, -, -, -, -, -, -, -, e80, e81⟩ := idx_facts t
  show V c main_v42 (((cfg1.win 2).blk t).view.emb (bRow j)) = V c main_v42 (rowIdx (((cfg1.win 8).blk t).view.emb j))
  refine congrArg (V c main_v42) (funext fun a => Fin.ext ?_)
  match a with
  | ⟨0, _⟩ => show win1_2.index t (0 : Fin 2) * 5000 + 1 * (j 0).val = win1_8.index t (0 : Fin 2) * 5000 + 1 * (j 0).val; omega
  | ⟨1, _⟩ => show win1_2.index t (1 : Fin 2) * 1 + 1 * 0 = 0; omega

/-- Each per-channel row window at the column of `j` is its 1 × 64 array at the column the output's block puts `j` at. -/
theorem read_rows (c : Dev nD) (t : Fin cfg1.N) (j : S5000x64.Idx) :
    iblk1 V c 3 t (bCol j) = V c main_v43 (colIdx (((cfg1.win 8).blk t).view.emb j))
    ∧ iblk1 V c 4 t (bCol j) = V c main_v44 (colIdx (((cfg1.win 8).blk t).view.emb j))
    ∧ iblk1 V c 5 t (bCol j) = V c main_v45 (colIdx (((cfg1.win 8).blk t).view.emb j))
    ∧ iblk1 V c 6 t (bCol j) = V c main_v46 (colIdx (((cfg1.win 8).blk t).view.emb j))
    ∧ iblk1 V c 7 t (bCol j) = V c main_v47 (colIdx (((cfg1.win 8).blk t).view.emb j)) := by
  obtain ⟨-, -, -, -, -, -, e30, e31, e40, e41, e50, e51, e60, e61, e70, e71, e80, e81⟩ := idx_facts t
  refine ⟨?_, ?_, ?_, ?_, ?_⟩
  · show V c main_v43 (((cfg1.win 3).blk t).view.emb (bCol j)) = V c main_v43 (colIdx (((cfg1.win 8).blk t).view.emb j))
    refine congrArg (V c main_v43) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_8.index t (1 : Fin 2) * 64 + 1 * (j 1).val; omega
  · show V c main_v44 (((cfg1.win 4).blk t).view.emb (bCol j)) = V c main_v44 (colIdx (((cfg1.win 8).blk t).view.emb j))
    refine congrArg (V c main_v44) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_8.index t (1 : Fin 2) * 64 + 1 * (j 1).val; omega
  · show V c main_v45 (((cfg1.win 5).blk t).view.emb (bCol j)) = V c main_v45 (colIdx (((cfg1.win 8).blk t).view.emb j))
    refine congrArg (V c main_v45) (funext fun a => Fin.ext ?_)
    match a with
    | ⟨0, _⟩ => show win1_5.index t (0 : Fin 2) * 1 + 1 * 0 = 0; omega
    | ⟨1, _⟩ => show win1_5.index t (1 : Fin 2) * 64 + 1 * (j 1).val = win1_8.index t (1 : Fin 2) * 64 + 1 * (j 1).val; omega
  · show V c main_v46 (((cfg1.win 6).blk t).view.emb (bCol j)) = V c main_v46 (colIdx (((cfg1.win 8).blk t).view.emb j))
    refine congrArg (V c main_v46) (funext fun a => Fin.ext ?_)
    match a with
    | ⟨0, _⟩ => show win1_6.index t (0 : Fin 2) * 1 + 1 * 0 = 0; omega
    | ⟨1, _⟩ => show win1_6.index t (1 : Fin 2) * 64 + 1 * (j 1).val = win1_8.index t (1 : Fin 2) * 64 + 1 * (j 1).val; omega
  · show V c main_v47 (((cfg1.win 7).blk t).view.emb (bCol j)) = V c main_v47 (colIdx (((cfg1.win 8).blk t).view.emb j))
    refine congrArg (V c main_v47) (funext fun a => Fin.ext ?_)
    match a with
    | ⟨0, _⟩ => show win1_7.index t (0 : Fin 2) * 1 + 1 * 0 = 0; omega
    | ⟨1, _⟩ => show win1_7.index t (1 : Fin 2) * 64 + 1 * (j 1).val = win1_8.index t (1 : Fin 2) * 64 + 1 * (j 1).val; omega

/-- WHAT POINT `t` WRITES BACK is block t of `bnRelu` of the eight operand arrays as the region finds them. -/
theorem flushed_eq (c : Dev nD) (t : Fin cfg1.N) :
    (dat1 V c).flushed 8 t = ((cfg1.win 8).blk t).view.read (Elt Ideal)
      (bnRelu (V c main_v39) (V c main_v4) (V c main_v42) (V c main_v43) (V c main_v44) (V c main_v45) (V c main_v46) (V c main_v47)) := by
  show (cfg1.win 8).cut (grid1.coords t) ((dat1 V c).after 8 t) = _
  rw [after1_8]
  unfold out1_8
  rw [View.canon_unit_zero hz]
  simp only [View.ld_unit_zero (S := S5000x64) hz, View.ld_unit_zero (S := S5000x1) hz, View.ld_unit_zero (S := S1x64) hz]
  funext j
  show k1_pay1 (F := Ideal) (iblk1 V c 0 t) (iblk1 V c 1 t) (iblk1 V c 2 t) (iblk1 V c 3 t) (iblk1 V c 4 t) (iblk1 V c 5 t) (iblk1 V c 6 t) (iblk1 V c 7 t) j
    = bnRelu (V c main_v39) (V c main_v4) (V c main_v42) (V c main_v43) (V c main_v44) (V c main_v45) (V c main_v46) (V c main_v47) (((cfg1.win 8).blk t).view.emb j)
  rw [epilogue_apply]
  obtain ⟨h0, h1⟩ := read_full V c t j
  obtain ⟨h3, h4, h5, h6, h7⟩ := read_rows V c t j
  rw [h0, h1, read_col V c t j, h3, h4, h5, h6, h7]
  rfl

/-- An index of the output is in point t's block iff each coordinate is in the block's range on its axis. -/
theorem mem_blk (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v48).slice (win1_8.rect t)).set ↔ _
  rw [View.set_slice_whole, Rect.mem_set_unit]
  exact Iff.rfl

/-- Row r lies in the block of point r / 5000: the 20 blocks tile the rows. -/
theorem cover (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_8 _, ?_⟩
  rw [mem_blk]
  obtain ⟨-, -, -, -, -, -, -, -, -, -, -, -, -, -, -, -, e80, e81⟩ := idx_facts ⟨(i 0).val / 5000, by rw [hN]; omega⟩
  intro a
  match a with
  | ⟨0, _⟩ =>
    show win1_8.index _ (0 : Fin 2) * 5000 ≤ (i 0).val ∧ (i 0).val < win1_8.index _ (0 : Fin 2) * 5000 + 5000
    rw [e80]; show (i 0).val / 5000 * 5000 ≤ (i 0).val ∧ (i 0).val < (i 0).val / 5000 * 5000 + 5000; omega
  | ⟨1, _⟩ =>
    show win1_8.index _ (1 : Fin 2) * 64 ≤ (i 1).val ∧ (i 1).val < win1_8.index _ (1 : Fin 2) * 64 + 64
    rw [e81]; omega

/-- THE OUTPUT ARRAY after region 1: `bnRelu` of the eight operand arrays as the region finds them. -/
theorem final (c : Dev nD) : (dat1 V c).arrAt 8 cfg1.N
    = bnRelu (V c main_v39) (V c main_v4) (V c main_v42) (V c main_v43) (V c main_v44) (V c main_v45) (V c main_v46) (V c main_v47) :=
  (dat1 V c).arrAt_eq_of_cover 8 _ (fun t _ => flushed_eq V c t) cover

end Cert.Gcn.Region1

end
-- ==== Proof.RefValue.lean ====
/-
  The reference, read at an entry.

  The reference computes `h = x · W` as one product, runs the gather / scatter chain from `h` and the edge list to the
  aggregate, and then the batch-normalised ReLU with every vector broadcast to the full N × 64 shape. Read at entry
  (r, q): each broadcast vector is read at channel q (the bias, the running mean and variance, γ, β) or at node r
  (`1 / deg`), the host's `rsqrt` and the blocked program's are one function of an extended real, and the product at
  (r, q) is the sum over k of x[r, k] · W[k, q]. So the reference's result is `bnReluVec` of: the aggregate chain
  applied to `rowDot x W`, `rowDot x W` itself, the vector `1 / deg`, and the five argument vectors. The aggregate
  chain is named (`aggOf`) as a function of `h` and the edge list and is not opened.
-/
import proofs.«113562_j70531952935093_1_alg».proof.Proof.Gen.ReferenceIdeal.Read
import proofs.«113562_j70531952935093_1_alg».proof.Proof.Spec

noncomputable section

namespace Cert.Gcn.Ref

open Idealize.ShloMosaic Idealize.ShloMosaic.TcCoe
open Cert.ReferenceIdeal Cert.ReferenceIdeal.Gen Cert.ReferenceIdeal.Read Cert.Gcn

/-! ## The product -/

theorem lidx_eq (i : S100000x64.Idx) (k : Fin 128) : lidx_main_v26 i k = lIdx i k :=
  funext fun a => by match a with
    | ⟨0, _⟩ => rfl
    | ⟨1, _⟩ => rfl
theorem ridx_eq (i : S100000x64.Idx) (k : Fin 128) : ridx_main_v26 i k = rIdx i k :=
  funext fun a => by match a with
    | ⟨0, _⟩ => rfl
    | ⟨1, _⟩ => rfl

/-- The host's whole product is `rowDot`. -/
theorem dot_eq (x0 : FVec Ideal S100000x128 .f32) (x2 : FVec Ideal S128x64 .f32) :
    val_main_v26 (F := Ideal) x0 x2 = rowDot x0 x2 := by
  funext i
  rw [val_main_v26_apply]
  unfold rowDot
  refine Finset.sum_congr rfl fun k _ => ?_
  rw [lidx_eq, ridx_eq]

/-! ## The aggregate chain, as a function of `h` and the edge list -/

/-- The rows `h[src e]` gathered, scaled by the edge weights, and scatter-added over `dst e` into zeros: the
    reference's own operations on `h`, with the edge weights and index columns as its stages name them. -/
def aggOf (h : FVec Ideal S100000x64 .f32) (x1 : IVec S2x1600000 32) : FVec Ideal S100000x64 .f32 :=
  Host.scatterAdd scatter_S100000x64_S1600000x1_S1600000x64_1_0_0_1 (val_main_v37 (F := Ideal)) (val_main_v38 (F := Ideal) x1)
    (mulf (Host.gather gather_S100000x64_S1600000x1_S1600000x64_1_0_n_n_0_1_164 h (val_main_v32 (F := Ideal) x1)) (val_main_v35 (F := Ideal) x1))

/-- The reference's aggregate is that chain applied to its product. -/
theorem agg_eq (x0 : FVec Ideal S100000x128 .f32) (x1 : IVec S2x1600000 32) (x2 : FVec Ideal S128x64 .f32) :
    val_main_v39 (F := Ideal) x0 x1 x2 = aggOf (val_main_v26 (F := Ideal) x0 x2) x1 := rfl

/-! ## The broadcasts' composed indices -/

theorem node_eq (i : S100000x64.Idx) : idx_main_v42 (idx_main_v43 i) = nodeIdx i :=
  funext fun a => by match a with
    | ⟨0, _⟩ => rfl
theorem chan_b (i : S100000x64.Idx) : idx_main_v46 (idx_main_v47 i) = chanIdx i :=
  funext fun a => by match a with
    | ⟨0, _⟩ => rfl
theorem chan_mu (i : S100000x64.Idx) : idx_main_v49 (idx_main_v50 i) = chanIdx i :=
  funext fun a => by match a with
    | ⟨0, _⟩ => rfl
theorem chan_var (i : S100000x64.Idx) : idx_main_v55 (idx_main_v56 i) = chanIdx i :=
  funext fun a => by match a with
    | ⟨0, _⟩ => rfl
theorem chan_gamma (i : S100000x64.Idx) : idx_main_v58 (idx_main_v59 i) = chanIdx i :=
  funext fun a => by match a with
    | ⟨0, _⟩ => rfl
theorem chan_beta (i : S100000x64.Idx) : idx_main_v61 (idx_main_v62 i) = chanIdx i :=
  funext fun a => by match a with
    | ⟨0, _⟩ => rfl

/-! ## The result -/

/-- The reference's result, entry by entry, is `bnReluVec` of its aggregate, its product, `1 / deg` and the five
    argument vectors. -/
theorem result_eq (x0 : FVec Ideal S100000x128 .f32) (x1 : IVec S2x1600000 32) (x2 : FVec Ideal S128x64 .f32)
    (x3 x4 x5 x6 x7 : FVec Ideal S64 .f32) :
    val_main_v64 (F := Ideal) x0 x1 x2 x3 x4 x5 x6 x7
      = bnReluVec (val_main_v39 (F := Ideal) x0 x1 x2) (val_main_v26 (F := Ideal) x0 x2) (val_main_v41 (F := Ideal) x1) x3 x4 x5 x6 x7 := by
  funext i
  rw [val_main_v64_apply, val_main_v63_apply, val_main_v60_apply, val_main_v57_apply, val_main_v51_apply, val_main_v48_apply,
    val_main_v45_apply, val_main_v44_apply, val_main_v43_apply, val_main_v42_apply, val_main_v47_apply, val_main_v46_apply,
    val_main_v50_apply, val_main_v49_apply, val_main_v56_apply, val_main_v55_apply, val_main_v54_apply, val_main_v53_apply,
    val_main_v52_apply, val_main_cst_9_apply, val_main_v59_apply, val_main_v58_apply, val_main_v62_apply, val_main_v61_apply,
    val_main_call0_v0_apply, val_main_call0_cst_apply,
    node_eq, chan_b, chan_mu, chan_var, chan_gamma, chan_beta]
  rfl

/-- With the product and the aggregate named: the reference's result as a function of the arguments. -/
theorem result (x0 : FVec Ideal S100000x128 .f32) (x1 : IVec S2x1600000 32) (x2 : FVec Ideal S128x64 .f32)
    (x3 x4 x5 x6 x7 : FVec Ideal S64 .f32) :
    val_main_v64 (F := Ideal) x0 x1 x2 x3 x4 x5 x6 x7
      = bnReluVec (aggOf (rowDot x0 x2) x1) (rowDot x0 x2) (val_main_v41 (F := Ideal) x1) x3 x4 x5 x6 x7 := by
  rw [result_eq, agg_eq, dot_eq]

end Cert.Gcn.Ref

end
-- ==== Proof.HostChain.lean ====
/-
  The blocked program's result buffer, read back through its run.

  The run's buffer contents at each boundary are a fold: the launch memory; after the first stretch of host operations
  (the two rows of the edge list cut out and flattened); after region 0 (`h` written, everything else as before); after
  the second stretch (the degree, the edge weights, the gathered and scaled rows, the aggregate, `1 / deg` as a column,
  the five vectors as rows); after region 1 (the output written). Reading the fold backwards:
    output    = bnRelu of region 1's eight operands as it finds them               (the epilogue's blocks tile it)
    operands  = the aggregate chain of `h` and the edge list; `h`; the column of `1 / deg`; the five rows
    h         = rowDot x W                                                         (the product's blocks tile it)
  and the aggregate chain, `1 / deg` and the edge rows are the reference's own stages of the same names, since both
  programs apply the same host operations. The layout of the column and the rows changes nothing (`bnRelu_layout`),
  so the result buffer holds what the reference's last stage does, of the same argument arrays.
-/
import proofs.«113562_j70531952935093_1_alg».proof.Proof.Gen.KernelIdeal.Frame
import proofs.«113562_j70531952935093_1_alg».proof.Proof.Region0
import proofs.«113562_j70531952935093_1_alg».proof.Proof.Region1
import proofs.«113562_j70531952935093_1_alg».proof.Proof.RefValue
import Idealize.ShloMosaic.Lib.StableHlo.Run

set_option maxRecDepth 16384

noncomputable section

namespace Cert.Gcn.Chain

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-! ## Through the first stretch: the arguments untouched, the edge rows cut out -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]; after_results
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]; after_results
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]; after_results
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]; after_results
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]; after_results
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]; after_results
theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]; after_results

/-- Row 0 of the edge list (the sources), flattened: the reference's stage of the same operations. -/
theorem W1_src (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]; after_results; rfl
/-- Row 1 of the edge list (the destinations), flattened. -/
theorem W1_dst (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]; after_results; rfl

/-! ## Through region 0: `h` written, the rest as before -/

/-- `h` after region 0 is `rowDot x W` of the argument arrays. -/
theorem W2_h (c : Dev nD) : W2 m ρ c (Proc.devRef .tc main_v4)
    = rowDot (m ((c : Thread nD τ).loc main_arg0)) (m ((c : Thread nD τ).loc main_arg2)) := by
  refine (W2_arr m ρ c 2).trans ((Region0.final (V1 m ρ) c).trans ?_)
  show rowDot (W1 m ρ c (Proc.devRef .tc main_arg0)) (W1 m ρ c (Proc.devRef .tc main_arg2)) = _
  rw [W1_arg0, W1_arg2]

theorem W2_src (c : Dev nD) : W2 m ρ c (Proc.devRef .tc main_v1) = Cert.ReferenceIdeal.Read.val_main_v1 (F := Ideal) (m ((c : Thread nD τ).loc main_arg1)) :=
  (W2_of_ne m ρ c main_v1 (by decide)).trans (W1_src m ρ c)
theorem W2_dst (c : Dev nD) : W2 m ρ c (Proc.devRef .tc main_v3) = Cert.ReferenceIdeal.Read.val_main_v3 (F := Ideal) (m ((c : Thread nD τ).loc main_arg1)) :=
  (W2_of_ne m ρ c main_v3 (by decide)).trans (W1_dst m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## Through the second stretch: region 1's eight operands -/

/-- `h` is not written by the second stretch. -/
theorem V3_h (c : Dev nD) : V3 m ρ c main_v4 = rowDot (m ((c : Thread nD τ).loc main_arg0)) (m ((c : Thread nD τ).loc main_arg2)) := by
  show StableHlo.after hostOps1 (W2 m ρ c) (Proc.devRef .tc main_v4) = _
  dsimp only [hostOps1]; after_results_simp
  exact W2_h m ρ c

/-- The aggregate is the shared chain applied to `h` and the edge list. -/
theorem V3_agg (c : Dev nD) : V3 m ρ c main_v39
    = Ref.aggOf (rowDot (m ((c : Thread nD τ).loc main_arg0)) (m ((c : Thread nD τ).loc main_arg2))) (m ((c : Thread nD τ).loc main_arg1)) := by
  show StableHlo.after hostOps1 (W2 m ρ c) (Proc.devRef .tc main_v39) = _
  dsimp only [hostOps1]; after_results_simp
  rw [W2_h, W2_src, W2_dst]
  rfl

/-- `1 / deg` as an N × 1 column: the reference's stage of the same operations. -/
theorem V3_invdeg (c : Dev nD) : V3 m ρ c main_v42 = Cert.ReferenceIdeal.Read.val_main_v42 (F := Ideal) (m ((c : Thread nD τ).loc main_arg1)) := by
  show StableHlo.after hostOps1 (W2 m ρ c) (Proc.devRef .tc main_v42) = _
  dsimp only [hostOps1]; after_results_simp
  rw [W2_dst]
  rfl

theorem V3_b (c : Dev nD) : V3 m ρ c main_v43 = shapeCast S1x64 (m ((c : Thread nD τ).loc main_arg3)) shapeCasts_S64_S1x64 := by
  show StableHlo.after hostOps1 (W2 m ρ c) (Proc.devRef .tc main_v43) = _
  dsimp only [hostOps1]; after_results_simp
  rw [W2_arg3]
  rfl
theorem V3_gamma (c : Dev nD) : V3 m ρ c main_v44 = shapeCast S1x64 (m ((c : Thread nD τ).loc main_arg4)) shapeCasts_S64_S1x64 := by
  show StableHlo.after hostOps1 (W2 m ρ c) (Proc.devRef .tc main_v44) = _
  dsimp only [hostOps1]; after_results_simp
  rw [W2_arg4]
  rfl
theorem V3_beta (c : Dev nD) : V3 m ρ c main_v45 = shapeCast S1x64 (m ((c : Thread nD τ).loc main_arg5)) shapeCasts_S64_S1x64 := by
  show StableHlo.after hostOps1 (W2 m ρ c) (Proc.devRef .tc main_v45) = _
  dsimp only [hostOps1]; after_results_simp
  rw [W2_arg5]
  rfl
theorem V3_mu (c : Dev nD) : V3 m ρ c main_v46 = shapeCast S1x64 (m ((c : Thread nD τ).loc main_arg6)) shapeCasts_S64_S1x64 := by
  show StableHlo.after hostOps1 (W2 m ρ c) (Proc.devRef .tc main_v46) = _
  dsimp only [hostOps1]; after_results_simp
  rw [W2_arg6]
  rfl
theorem V3_var (c : Dev nD) : V3 m ρ c main_v47 = shapeCast S1x64 (m ((c : Thread nD τ).loc main_arg7)) shapeCasts_S64_S1x64 := by
  show StableHlo.after hostOps1 (W2 m ρ c) (Proc.devRef .tc main_v47) = _
  dsimp only [hostOps1]; after_results_simp
  rw [W2_arg7]
  rfl

/-! ## The result buffer -/

/-- THE RESULT BUFFER after the run holds the reference's last stage of the same argument arrays. -/
theorem result (c : Dev nD) : W4 m ρ c (Proc.devRef .tc main_v48)
    = Cert.ReferenceIdeal.Read.val_main_v64 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 8).trans ((Region1.final (V3 m ρ) c).trans ?_)
  rw [V3_agg, V3_h, V3_invdeg, V3_b, V3_gamma, V3_beta, V3_mu, V3_var, Ref.result]
  exact bnRelu_layout _ _ (Cert.ReferenceIdeal.Read.val_main_v41 (F := Ideal) (m ((c : Thread nD τ).loc main_arg1))) _ _ _ _ _

end Cert.Gcn.Chain

end
-- ==== Proof.lean ====
/-
  A graph-convolution layer with batch normalisation and ReLU, blocked for the TensorCore, against its plain reference:
  on N = 100000 nodes and E = 1600000 edges,
      out = max(0, ((Â h + b) − μ) · (σ² + ε)^(-1/2) · γ + β),     h = x · W,
  where Â h = agg + h / deg is the symmetrically normalised adjacency with self-loops applied to h (deg the in-degree
  plus one, agg the scatter-add over destinations of the gathered source rows scaled by deg[src]^(-1/2) · deg[dst]^(-1/2)).

  The blocked program computes h in 20 row blocks of 5000 on the matrix unit (inputs rounded to bfloat16, which on the
  extended reals is the identity), runs the gather / scatter chain on the host exactly as the reference does, and
  computes the last line in 20 row blocks of 5000 from `agg`, `h`, the column `1 / deg` and the five per-channel rows.
  Over the extended reals the two programs apply the same operations in the same order to the same numbers, so no
  algebraic law is needed and the finiteness of the inputs is never used:
    · a block of the product at (p, q) is Σ_k x[5000·t + p, k] · W[k, q], the reference's product at that row (Region0, RefValue);
    · the shared host chain is carried as one function of h and the edge list, never opened (RefValue.aggOf, HostChain);
    · a block of the epilogue at (p, q) is the reference's broadcast arithmetic at (5000·t + p, q), the column read at
      its row and each per-channel row at its channel (Region1, Spec.bnRelu_layout, RefValue.result_eq);
    · the blocks of each region tile the 100000 rows, so each array ends as one whole-array function (Region0.final, Region1.final).
  The three frames are the generated ones (the reference's: its run with the result dropped); the idealisation rewrote
  nothing, so `preserves` is trivial.
-/
import proofs.«113562_j70531952935093_1_alg».proof.Defs
import proofs.«113562_j70531952935093_1_alg».proof.Proof.Gen.Kernel
import proofs.«113562_j70531952935093_1_alg».proof.Proof.Gen.Kernel.Skeleton
import proofs.«113562_j70531952935093_1_alg».proof.Proof.Gen.Kernel.Launch
import proofs.«113562_j70531952935093_1_alg».proof.Proof.Gen.Kernel.Points
import proofs.«113562_j70531952935093_1_alg».proof.Proof.Gen.Kernel.Frame
import proofs.«113562_j70531952935093_1_alg».proof.Proof.Gen.KernelIdeal
import proofs.«113562_j70531952935093_1_alg».proof.Proof.Gen.KernelIdeal.Skeleton
import proofs.«113562_j70531952935093_1_alg».proof.Proof.Gen.KernelIdeal.Launch
import proofs.«113562_j70531952935093_1_alg».proof.Proof.Gen.KernelIdeal.Points
import proofs.«113562_j70531952935093_1_alg».proof.Proof.Gen.KernelIdeal.Frame
import proofs.«113562_j70531952935093_1_alg».proof.Proof.Gen.ReferenceIdeal
import proofs.«113562_j70531952935093_1_alg».proof.Proof.Gen.Pre_finite_inputs
import proofs.«113562_j70531952935093_1_alg».proof.Proof.Gen.ReferenceIdeal.Run
import proofs.«113562_j70531952935093_1_alg».proof.Proof.Gen.ReferenceIdeal.Read
import proofs.«113562_j70531952935093_1_alg».proof.Proof.KernelRun
import proofs.«113562_j70531952935093_1_alg».proof.Proof.HostChain
import Idealize.ShloMosaic.Adequacy
import Idealize.ShloMosaic.Init

noncomputable section

namespace Cert.Proof

open Idealize.ShloMosaic Idealize.ShloMosaic.TcCoe Idealize.SL.Sem

/-- The blocked program at the word level runs, and leaves its arguments as they were. -/
theorem frame_kernel : Cert.frame_Kernel := fun m ρ _ => Cert.Kernel.Gen.frame m ρ

/-- The same program read over the extended reals runs, and leaves its arguments as they were. -/
theorem frame_kernelIdeal : Cert.frame_KernelIdeal := fun m ρ _ => Cert.KernelIdeal.Gen.frame m ρ

/-- The reference runs, and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the eight arguments, both programs end with the same
    N × 64 result: the blocked program's result buffer holds the reference's last stage of the argument arrays
    (`Cert.Gcn.Chain.result`), and the reference's run ends at that stage. -/
theorem algebraic : Cert.algebraic_KernelIdeal_ReferenceIdeal := by
  intro m ρ m' ρ' _ hagree
  refine ⟨_, Cert.KernelIdeal.RunV.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v64_eq, a0, a1, a2, a3, a4, a5, a6, a7]
  exact (Cert.Gcn.Chain.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
